-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64x128 : Shape := ⟨4, ![64, 64, 64, 128]⟩
abbrev S128x128 : Shape := ⟨2, ![128, 128]⟩
abbrev S_ : Shape := ⟨0, ![]⟩

class Facts : Prop where
  bcast_S_S64x64x64x128 : S_.BroadcastsInDim S64x64x64x128 (![] : Fin 0 → Fin S64x64x64x128.rank)
  reducesTo_S64x64x64x128_S_d0_1_2_3 : S64x64x64x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S64x64x64x128 .f32) (main_arg1 : FVec F S128x128 .f32) (main_arg2 : FVec F S128x128 .f32) (main_arg3 : FVec F S128x128 .f32) : IVec S_ 1 :=
  let main_v0 : FVec F S64x64x64x128 .f32 := Host.absf main_arg0
  let main_cst : FVec F S_ .f32 := constant S_ .f32 0x7F800000#32
  let main_v1 : FVec F S64x64x64x128 .f32 := broadcastInDim S64x64x64x128 ![] bcast_S_S64x64x64x128 main_cst
  let main_v2 : IVec S64x64x64x128 1 := cmpf .olt main_v0 main_v1
  let main_c : IVec S_ 1 := constantI S_ 1 1#1
  let main_v3 : IVec S_ 1 := (fun x v => Host.reduce IntOp.andi x v reducesTo_S64x64x64x128_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S64x64x64x128 : Shape := ⟨4, ![64, 64, 64, 128]⟩
abbrev S128x128 : Shape := ⟨2, ![128, 128]⟩
abbrev S1x64x64x128 : Shape := ⟨4, ![1, 64, 64, 128]⟩
abbrev S64x64x128 : Shape := ⟨3, ![64, 64, 128]⟩
abbrev S64x128 : Shape := ⟨2, ![64, 128]⟩
abbrev S4096x128 : Shape := ⟨2, ![4096, 128]⟩
abbrev S64x1x128 : Shape := ⟨3, ![64, 1, 128]⟩
abbrev S1x64x128 : Shape := ⟨3, ![1, 64, 128]⟩

abbrev nBuf : Space → Nat
  | .hbm => 5
  | .vmem => 7
  | .smem => 0
  | _ => 0

abbrev bufTy : (tb : Table) → Fin (tcTables nBuf tb) → BufTy
  | .hbm, ⟨0, _⟩ => ⟨S64x64x64x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S64x64x64x128, .f32⟩
  | .local _ .vmem, ⟨0, _⟩ => ⟨S1x64x64x128, .f32⟩
  | .local _ .vmem, ⟨1, _⟩ => ⟨S1x64x64x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x64x64x128, .f32⟩
  | .local _ .vmem, ⟨6, _⟩ => ⟨S1x64x64x128, .f32⟩
  | _, _ => ⟨S64x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  reduces_S64x64x128_S64x128 : S64x64x128.Reduces [1] S64x128
  reduces_S64x64x128_S64x128_2 : S64x64x128.Reduces [0] S64x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S64x64x128_S4096x128 : S64x64x128.ShapeCasts S4096x128
  transposes_S128x128_p1_0_S128x128 : S128x128.Transposes [1, 0] S128x128
  shapeCasts_S4096x128_S64x64x128 : S4096x128.ShapeCasts S64x64x128
  shapeCasts_S64x128_S64x1x128 : S64x128.ShapeCasts S64x1x128
  broadcasts_S64x1x128_S64x64x128 : S64x1x128.Broadcasts S64x64x128
  shapeCasts_S64x128_S1x64x128 : S64x128.ShapeCasts S1x64x128
  broadcasts_S1x64x128_S64x64x128 : S1x64x128.Broadcasts S64x64x128
  shapeCasts_S64x64x128_S1x64x64x128 : S64x64x128.ShapeCasts S1x64x64x128
  dot_S4096x128_S128x128_S4096x128_1_0_0_1_n_n_wf : DotDims.WF S4096x128 S128x128 S4096x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S64x64x64x128.size a
  hwx0_0 : ∀ i : grid0.Coords, EltTy.bits .f32 = 32 ∨ (Rect.block (s := S64x64x64x128) S1x64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x128.size a ≤ S64x64x64x128.size a
  hwx0_4 : ∀ i : grid0.Coords, EltTy.bits .f32 = 32 ∨ (Rect.block (s := S64x64x64x128) S1x64x64x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x64x64x128 : Shape := ⟨4, ![64, 64, 64, 128]⟩
abbrev S128x128 : Shape := ⟨2, ![128, 128]⟩
abbrev S_ : Shape := ⟨0, ![]⟩
abbrev S64x64x128 : Shape := ⟨3, ![64, 64, 128]⟩
abbrev S64x64x1x128 : Shape := ⟨4, ![64, 64, 1, 128]⟩
abbrev S64x1x64x128 : Shape := ⟨4, ![64, 1, 64, 128]⟩

abbrev nBuf : Space → Nat
  | .hbm => 17
  | .vmem => 0
  | .smem => 0
  | _ => 0

abbrev bufTy : (tb : Table) → Fin (tcTables nBuf tb) → BufTy
  | .hbm, ⟨0, _⟩ => ⟨S64x64x64x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S64x64x128, .f32⟩
  | .hbm, ⟨6, _⟩ => ⟨S_, .f32⟩
  | .hbm, ⟨7, _⟩ => ⟨S64x64x128, .f32⟩
  | .hbm, ⟨8, _⟩ => ⟨S64x64x64x128, .f32⟩
  | .hbm, ⟨9, _⟩ => ⟨S64x64x128, .f32⟩
  | .hbm, ⟨10, _⟩ => ⟨S64x64x1x128, .f32⟩
  | .hbm, ⟨11, _⟩ => ⟨S64x64x128, .f32⟩
  | .hbm, ⟨12, _⟩ => ⟨S64x1x64x128, .f32⟩
  | .hbm, ⟨13, _⟩ => ⟨S64x64x64x128, .f32⟩
  | .hbm, ⟨14, _⟩ => ⟨S64x64x64x128, .f32⟩
  | .hbm, ⟨15, _⟩ => ⟨S64x64x64x128, .f32⟩
  | .hbm, ⟨16, _⟩ => ⟨S64x64x64x128, .f32⟩
  | _, _ => ⟨S64x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S64x64x64x128_S64x64x128_d2 : S64x64x64x128.ReducesTo [2] S64x64x128
  h_S_ : 0 < S_.numel
  reducesTo_S64x64x64x128_S64x64x128_d1 : S64x64x64x128.ReducesTo [1] S64x64x128
  bcast_S64x64x128_S64x64x1x128_0_1_3 : S64x64x128.BroadcastsInDim S64x64x1x128 (![0, 1, 3] : Fin 3 → Fin S64x64x1x128.rank)
  bcast_S64x64x128_S64x1x64x128_0_2_3 : S64x64x128.BroadcastsInDim S64x1x64x128 (![0, 2, 3] : Fin 3 → Fin S64x1x64x128.rank)
  bcast_S64x64x1x128_S64x64x64x128_0_1_2_3 : S64x64x1x128.BroadcastsInDim S64x64x64x128 (![0, 1, 2, 3] : Fin 4 → Fin S64x64x64x128.rank)
  bcast_S64x1x64x128_S64x64x64x128_0_1_2_3 : S64x1x64x128.BroadcastsInDim S64x64x64x128 (![0, 1, 2, 3] : Fin 4 → Fin S64x64x64x128.rank)
  dot_S64x64x64x128_S128x128_S64x64x64x128_3_1_012_0_n_n_wf : DotDims.WF S64x64x64x128 S128x128 S64x64x64x128 [3] [1] [0, 1, 2] [0] [] []
  dot_S64x64x128_S128x128_S64x64x128_2_1_01_0_n_n_wf : DotDims.WF S64x64x128 S128x128 S64x64x128 [2] [1] [0, 1] [0] [] []

variable [Facts₀]

def dot_S64x64x64x128_S128x128_S64x64x64x128_3_1_012_0_n_n : DotDims S64x64x64x128 S128x128 S64x64x64x128 where
  lhsContracting := [3]
  rhsContracting := [1]
  lhsNonContracting := [0, 1, 2]
  rhsNonContracting := [0]
  lhsBatch := []
  rhsBatch := []
  wf := dot_S64x64x64x128_S128x128_S64x64x64x128_3_1_012_0_n_n_wf
def dot_S64x64x128_S128x128_S64x64x128_2_1_01_0_n_n : DotDims S64x64x128 S128x128 S64x64x128 where
  lhsContracting := [2]
  rhsContracting := [1]
  lhsNonContracting := [0, 1]
  rhsNonContracting := [0]
  lhsBatch := []
  rhsBatch := []
  wf := dot_S64x64x128_S128x128_S64x64x128_2_1_01_0_n_n_wf

class Facts : Prop extends Facts₀ where

variable [Facts]
-- ==== Proof.Spec.lean ====
/-
  The message-passing layer that both programs compute, as ONE function of the four argument arrays.

  `x : [64, 64, 64, 128]` holds, per batch `b`, antenna `m` and user `k`, a feature vector over `d`; the three weight
  matrices are `[128, 128]`, indexed (output feature `h`, input feature `d`). The output at `(b, m, k, h`) is

      ∑_d x[b,m,k,d]·Wself[h,d]  +  ∑_d (∑_k' x[b,m,k',d])·Wm[h,d]  +  ∑_d (∑_m' x[b,m',k,d])·Wk[h,d] :

  the pair's own vector, the sum of the antenna's vectors over all users, and the sum of the user's vectors over all
  antennas, each through its own matrix. All sums and products are those of the extended reals; the three terms are
  added left to right. Only the batch's own slice of `x` enters, so the same formula over ONE batch's `[1, 64, 64, 128]`
  block (`blockAt`) is what a grid point of the kernel computes, and `layerAt_eq_blockAt` says so.

  Also here: a lane sum of a `[64, 64, 128]` block over its middle or its leading axis, read at an index, is the
  `Fin 64`-indexed sum of the block's entries along that axis.
-/
import Idealize.ShloMosaic.Lib.ValueIdx
import Idealize.ShloMosaic.PureOps.Ideal.Laws

noncomputable section

open scoped BigOperators

namespace Cert.Gnn

open Idealize.ShloMosaic Idealize.ShloMosaic.ValueIdx

/-- The whole input, a weight matrix, and one batch's block, as functions to the extended reals. -/
abbrev Arr4 : Type := (⟨4, ![64, 64, 64, 128]⟩ : Shape).Idx → EReal
abbrev Mat : Type := (⟨2, ![128, 128]⟩ : Shape).Idx → EReal
abbrev Blk : Type := (⟨4, ![1, 64, 64, 128]⟩ : Shape).Idx → EReal

/-- The layer's output at batch `b`, antenna `m`, user `k`, output feature `h`. -/
def layerAt (x : Arr4) (ws wm wk : Mat) (b m k : Fin 64) (h : Fin 128) : EReal :=
  (∑ d : Fin 128, x (ix4 b m k d) * ws (ix2 h d))
    + (∑ d : Fin 128, (∑ k' : Fin 64, x (ix4 b m k' d)) * wm (ix2 h d))
    + (∑ d : Fin 128, (∑ m' : Fin 64, x (ix4 b m' k d)) * wk (ix2 h d))

/-- The layer's output array. -/
def layer (x : Arr4) (ws wm wk : Mat) : Arr4 := fun i => layerAt x ws wm wk (i 0) (i 1) (i 2) (i 3)

/-- The same formula over one batch's block: what one grid point computes from the block it is handed. -/
def blockAt (xb : Blk) (ws wm wk : Mat) (m k : Fin 64) (h : Fin 128) : EReal :=
  (∑ d : Fin 128, xb (ix4 (0 : Fin 1) m k d) * ws (ix2 h d))
    + (∑ d : Fin 128, (∑ k' : Fin 64, xb (ix4 (0 : Fin 1) m k' d)) * wm (ix2 h d))
    + (∑ d : Fin 128, (∑ m' : Fin 64, xb (ix4 (0 : Fin 1) m' k d)) * wk (ix2 h d))

/-- Batch `b`'s slice of the input, as a block. -/
def batch (x : Arr4) (b : Fin 64) : Blk := fun y => x (ix4 b (y 1) (y 2) (y 3))

/-- The layer at batch `b` is the block formula on batch `b`'s slice: no other batch enters. -/
theorem layerAt_eq_blockAt (x : Arr4) (ws wm wk : Mat) (b m k : Fin 64) (h : Fin 128) :
    layerAt x ws wm wk b m k h = blockAt (batch x b) ws wm wk m k h := rfl

/-! ## A lane sum over one axis of a block, at an index -/

/-- The sum over the users (the middle axis) at `(m, d)` adds the entries `(m, k, d)` over `k`. -/
theorem sum_over_users_apply {φ : FTy} (v : FVec Ideal ⟨3, ![64, 64, 128]⟩ φ) (acc : BitVec φ.bits)
    (hr : Shape.Reduces ⟨3, ![64, 64, 128]⟩ [1] ⟨2, ![64, 128]⟩) (hφ : FKind.Formats φ) (hacc : acc = FKind.add.neutral φ hφ)
    (m : Fin 64) (d : Fin 128) :
    multiReduction .add [1] ⟨2, ![64, 128]⟩ v acc hr hφ hacc (ix2 m d) = ∑ k : Fin 64, v (ix3 m k d) := by
  refine (Ideal.multiReduction_add_single v acc hr hφ hacc (ix2 m d)).trans ?_
  refine Finset.sum_congr rfl fun k _ => congrArg v (funext fun a => Fin.ext ?_)
  match a with
  | ⟨0, _⟩ => rfl
  | ⟨1, _⟩ => rfl
  | ⟨2, _⟩ => rfl

/-- The sum over the antennas (the leading axis) at `(k, d)` adds the entries `(m, k, d)` over `m`. -/
theorem sum_over_antennas_apply {φ : FTy} (v : FVec Ideal ⟨3, ![64, 64, 128]⟩ φ) (acc : BitVec φ.bits)
    (hr : Shape.Reduces ⟨3, ![64, 64, 128]⟩ [0] ⟨2, ![64, 128]⟩) (hφ : FKind.Formats φ) (hacc : acc = FKind.add.neutral φ hφ)
    (k : Fin 64) (d : Fin 128) :
    multiReduction .add [0] ⟨2, ![64, 128]⟩ v acc hr hφ hacc (ix2 k d) = ∑ m : Fin 64, v (ix3 m k d) := by
  refine (Ideal.multiReduction_add_single v acc hr hφ hacc (ix2 k d)).trans ?_
  refine Finset.sum_congr rfl fun m _ => congrArg v (funext fun a => Fin.ext ?_)
  match a with
  | ⟨0, _⟩ => rfl
  | ⟨1, _⟩ => rfl
  | ⟨2, _⟩ => rfl

end Cert.Gnn

end
-- ==== Proof.Layout.lean ====
/-
  How the kernel body re-lays one batch's block, read at an index given by coordinates.

  The body holds the batch's block as `[64, 64, 128]` (antenna `m`, user `k`, feature `d`). For the large product it views
  the block as the `[4096, 128]` matrix whose row `m·64 + k` is the pair `(m, k)`, and views the product back; the two small
  products come out as `[64, 128]` and are viewed as `[64, 1, 128]` (one row per antenna) and `[1, 64, 128]` (one row per
  user) and then broadcast along the axis they lack. Each lemma names the ONE element of the operand that the re-laid value
  reads at `(m, k, ·)`; both sides of a shape cast sit at the same row-major position, which is all a cast preserves.
-/
import Idealize.ShloMosaic.Lib.Pipeline.Value
import Idealize.ShloMosaic.Lib.ValueIdx
import Idealize.ShloMosaic.Lib.ValueLayout

namespace Cert.Gnn.Layout

open Idealize.ShloMosaic Idealize.ShloMosaic.ValueIdx

variable {α : Type}

/-- Row `m·64 + k` of the `[4096, 128]` view: the pair `(m, k)` of the `[64, 64, 128]` block. -/
abbrev row (m k : Fin 64) : Fin 4096 := ⟨m.val * 64 + k.val, by have := m.isLt; have := k.isLt; omega⟩

/-- The block viewed as a matrix reads, at row `m·64 + k` and column `d`, the block at `(m, k, d)`:
    both are at row-major position `(m·64 + k)·128 + d`. -/
theorem cast_merge_rows (x : (⟨3, ![64, 64, 128]⟩ : Shape).Idx → α)
    (h : (⟨3, ![64, 64, 128]⟩ : Shape).ShapeCasts ⟨2, ![4096, 128]⟩) (m k : Fin 64) (d : Fin 128) :
    shapeCast ⟨2, ![4096, 128]⟩ x h (ix2 (row m k) d) = x (ix3 m k d) :=
  shapeCast_apply x h _ _ (by
    rw [Shape.rowMajor_val_three, Shape.rowMajor_val_two]
    show (m.val * 64 + k.val) * 128 + d.val = (m.val * 64 + k.val) * 128 + d.val
    rfl)

/-- A matrix viewed back as a block reads, at `(m, k, c)`, the matrix at row `m·64 + k` and column `c`. -/
theorem cast_split_rows (x : (⟨2, ![4096, 128]⟩ : Shape).Idx → α)
    (h : (⟨2, ![4096, 128]⟩ : Shape).ShapeCasts ⟨3, ![64, 64, 128]⟩) (m k : Fin 64) (c : Fin 128) :
    shapeCast ⟨3, ![64, 64, 128]⟩ x h (ix3 m k c) = x (ix2 (row m k) c) :=
  shapeCast_apply x h _ _ (by
    rw [Shape.rowMajor_val_three, Shape.rowMajor_val_two]
    show (m.val * 64 + k.val) * 128 + c.val = (m.val * 64 + k.val) * 128 + c.val
    rfl)

/-- A `[64, 128]` matrix viewed as `[64, 1, 128]` reads, at `(m, u, c)`, the matrix at `(m, c)`: the unit coordinate
    `u` is `0` and adds nothing to the position. -/
theorem cast_unit_middle (x : (⟨2, ![64, 128]⟩ : Shape).Idx → α)
    (h : (⟨2, ![64, 128]⟩ : Shape).ShapeCasts ⟨3, ![64, 1, 128]⟩) (m : Fin 64) (u : Fin 1) (c : Fin 128) :
    shapeCast ⟨3, ![64, 1, 128]⟩ x h (ix3 m u c) = x (ix2 m c) :=
  shapeCast_apply x h _ _ (by
    have hu : u.val = 0 := by omega
    rw [Shape.rowMajor_val_three, Shape.rowMajor_val_two]
    show m.val * 128 + c.val = (m.val * 1 + u.val) * 128 + c.val
    rw [hu, Nat.mul_one, Nat.add_zero])

/-- One row per antenna, broadcast over the users: at `(m, k, c)` the `[64, 1, 128]` operand at `(m, 0, c)`. -/
theorem bcast_over_users (v : (⟨3, ![64, 1, 128]⟩ : Shape).Idx → α)
    (h : (⟨3, ![64, 1, 128]⟩ : Shape).Broadcasts ⟨3, ![64, 64, 128]⟩) (m k : Fin 64) (c : Fin 128) :
    broadcastTo ⟨3, ![64, 64, 128]⟩ v h (ix3 m k c) = v (ix3 m (0 : Fin 1) c) := by
  refine broadcastTo_apply v h (ix3 m k c) (ix3 m (0 : Fin 1) c) fun ax => ?_
  match ax with
  | ⟨0, _⟩ =>
    show m.val = if (64 : Nat) = 1 then 0 else m.val
    rw [if_neg (by decide)]
  | ⟨1, _⟩ => rfl
  | ⟨2, _⟩ =>
    show c.val = if (128 : Nat) = 1 then 0 else c.val
    rw [if_neg (by decide)]

/-- One row per user, broadcast over the antennas: at `(m, k, c)` the `[1, 64, 128]` operand at `(0, k, c)`. -/
theorem bcast_over_antennas (v : (⟨3, ![1, 64, 128]⟩ : Shape).Idx → α)
    (h : (⟨3, ![1, 64, 128]⟩ : Shape).Broadcasts ⟨3, ![64, 64, 128]⟩) (m k : Fin 64) (c : Fin 128) :
    broadcastTo ⟨3, ![64, 64, 128]⟩ v h (ix3 m k c) = v (ix3 (0 : Fin 1) k c) := by
  refine broadcastTo_apply v h (ix3 m k c) (ix3 (0 : Fin 1) k c) fun ax => ?_
  match ax with
  | ⟨0, _⟩ => rfl
  | ⟨1, _⟩ =>
    show k.val = if (64 : Nat) = 1 then 0 else k.val
    rw [if_neg (by decide)]
  | ⟨2, _⟩ =>
    show c.val = if (128 : Nat) = 1 then 0 else c.val
    rw [if_neg (by decide)]

end Cert.Gnn.Layout
-- ==== Proof.Products.lean ====
/-
  The kernel's two matrix products, read at an index.

  Both contract the left operand's columns against the right operand's rows, into a zero accumulator: the large one is
  `[4096, 128] · [128, 128]` (every (antenna, user) row of the batch against the transposed self weights), the small one
  `[64, 128] · [128, 128]` (the antennas' or the users' summed messages against their transposed weights). At the
  extended reals a product into zero is just the sum over the contracted coordinate:
      (L · R)[r, c] = ∑_d L[r, d] · R[d, c].
  The contraction index of the dimension numbers has one axis, of extent 128; the sum is re-indexed through it to a
  `Fin 128`-indexed sum, and the operand indices are read off axis by axis.
-/
import proofs.«172547_j44495861186887_1_alg».proof.Proof.Gen.KernelIdeal
import Idealize.ShloMosaic.Lib.ValueIdx
import Idealize.ShloMosaic.PureOps.Ideal.Laws

noncomputable section

open scoped BigOperators

namespace Cert.Gnn.Products

open Cert.KernelIdeal Cert.KernelIdeal.Gen Idealize.ShloMosaic Idealize.ShloMosaic.ValueIdx

/-! ## The large product: `[4096, 128] · [128, 128]` -/

theorem lhs_big_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_big_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_big_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_big_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The large product into a zero accumulator at row `r`, column `c`: `∑_d L[r, d] · R[d, c]`. -/
theorem big_apply {φ₁ φ₂ : FTy} (L : FVec Ideal S4096x128 φ₁) (R : FVec Ideal S128x128 φ₂) (r : Fin 4096) (c : Fin 128) :
    matmul dot_S4096x128_S128x128_S4096x128_1_0_0_1_n_n none L R (constant S4096x128 .f32 0x00000000#32) (ix2 r c)
      = ∑ d : Fin 128, L (ix2 r d) * R (ix2 d c) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r c) ((contrEquiv1 dot_S4096x128_S128x128_S4096x128_1_0_0_1_n_n 128 rfl rfl).symm k) = ix2 r k := funext fun a => Fin.ext (by
    match a with
    | ⟨0, _⟩ => exact lhs_big_0 _ _
    | ⟨1, _⟩ => exact (lhs_big_1 _ _).trans hk)
  have er : dot_S4096x128_S128x128_S4096x128_1_0_0_1_n_n.rhsIdx (ix2 r c) ((contrEquiv1 dot_S4096x128_S128x128_S4096x128_1_0_0_1_n_n 128 rfl rfl).symm k) = ix2 k c := funext fun a => Fin.ext (by
    match a with
    | ⟨0, _⟩ => exact (rhs_big_0 _ _).trans hk
    | ⟨1, _⟩ => exact rhs_big_1 _ _)
  rw [el, er]

/-! ## The small product: `[64, 128] · [128, 128]` -/

theorem lhs_small_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_small_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_small_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_small_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The small product into a zero accumulator at row `r`, column `c`: `∑_d L[r, d] · R[d, c]`. -/
theorem small_apply {φ₁ φ₂ : FTy} (L : FVec Ideal S64x128 φ₁) (R : FVec Ideal S128x128 φ₂) (r : Fin 64) (c : Fin 128) :
    matmul dot_S64x128_S128x128_S64x128_1_0_0_1_n_n none L R (constant S64x128 .f32 0x00000000#32) (ix2 r c)
      = ∑ d : Fin 128, L (ix2 r d) * R (ix2 d c) := by
  simp only [matmul]
  rw [Ideal.matmul_constant_zero_apply, ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 r c) ((contrEquiv1 dot_S64x128_S128x128_S64x128_1_0_0_1_n_n 128 rfl rfl).symm k) = ix2 r k := funext fun a => Fin.ext (by
    match a with
    | ⟨0, _⟩ => exact lhs_small_0 _ _
    | ⟨1, _⟩ => exact (lhs_small_1 _ _).trans hk)
  have er : dot_S64x128_S128x128_S64x128_1_0_0_1_n_n.rhsIdx (ix2 r c) ((contrEquiv1 dot_S64x128_S128x128_S64x128_1_0_0_1_n_n 128 rfl rfl).symm k) = ix2 k c := funext fun a => Fin.ext (by
    match a with
    | ⟨0, _⟩ => exact (rhs_small_0 _ _).trans hk
    | ⟨1, _⟩ => exact rhs_small_1 _ _)
  rw [el, er]

end Cert.Gnn.Products

end
-- ==== Proof.Payload.lean ====
/-
  What one grid point stores, read at an index.

  The body's one store writes, over the whole `[1, 64, 64, 128]` output block, the value built from the batch's input
  block `x0` and the three weight matrices. At `(·, m, k, h)` that value is the layer's formula on the block
  (`Cert.Gnn.blockAt`):
    • the self term: the block viewed as a `[4096, 128]` matrix times the transposed self weights, viewed back, reads
      row `m·64 + k`, i.e. `∑_d x0[0,m,k,d] · Wself[h,d]`;
    • the antenna term: the block summed over the users, times the transposed weights, one row per antenna broadcast
      over the users: `∑_d (∑_k' x0[0,m,k',d]) · Wm[h,d]`;
    • the user term: the block summed over the antennas, times the transposed weights, one row per user broadcast
      over the antennas: `∑_d (∑_m' x0[0,m',k,d]) · Wk[h,d]`.
  The narrowing to sixteen bits before each product is the identity on the extended reals, a product into a zero
  accumulator is the bare sum, and a lane sum from the neutral element is the bare sum, so nothing but the formula is left.
-/
import proofs.«172547_j44495861186887_1_alg».proof.Proof.Gen.KernelIdeal.Skeleton
import proofs.«172547_j44495861186887_1_alg».proof.Proof.Spec
import proofs.«172547_j44495861186887_1_alg».proof.Proof.Layout
import proofs.«172547_j44495861186887_1_alg».proof.Proof.Products
import Idealize.ShloMosaic.Lib.ValueLayout

noncomputable section

open scoped BigOperators

namespace Cert.Gnn.Payload

open Cert.KernelIdeal Cert.KernelIdeal.Gen Idealize.ShloMosaic Idealize.ShloMosaic.ValueIdx Cert.Gnn

/-- The stored value at `(u, m, k, h)` (`u` the block's unit batch coordinate) is the layer's formula on the block. -/
theorem stored_at (x0 : Vec Ideal S1x64x64x128 .f32) (x1 x2 x3 : Vec Ideal S128x128 .f32)
    (u : Fin 1) (m k : Fin 64) (h : Fin 128) :
    k0_pay1 (F := Ideal) x0 x1 x2 x3 (ix4 u m k h) = blockAt x0 x1 x2 x3 m k h := by
  unfold k0_pay1
  dsimp only
  refine (shapeCast_abc_1abc_apply _ _ u m k h).trans ?_
  show (_ + _) + _ = _
  unfold blockAt
  refine congrArg₂ (· + ·) (congrArg₂ (· + ·) ?_ ?_) ?_
  · -- the self term
    refine (Layout.cast_split_rows _ _ m k h).trans ?_
    refine (Products.big_apply _ _ (Layout.row m k) h).trans ?_
    refine Finset.sum_congr rfl fun d _ => congrArg₂ (· * ·) ?_ ?_
    · refine (Layout.cast_merge_rows _ _ m k d).trans ?_
      refine (truncf_apply (φ := FTy.f32) (ψ := FTy.bf16) _ bitsLt_bf16_f32 (ix3 m k d)).trans ?_
      exact shapeCast_1abc_abc_apply x0 _ m k d
    · refine (transpose_ix2_apply _ _ d h).trans ?_
      exact truncf_apply (φ := FTy.f32) (ψ := FTy.bf16) _ bitsLt_bf16_f32 (ix2 h d)
  · -- the antenna term
    refine (Layout.bcast_over_users _ _ m k h).trans ?_
    refine (Layout.cast_unit_middle _ _ m (0 : Fin 1) h).trans ?_
    refine (Products.small_apply _ _ m h).trans ?_
    refine Finset.sum_congr rfl fun d _ => congrArg₂ (· * ·) ?_ ?_
    · refine (truncf_apply (φ := FTy.f32) (ψ := FTy.bf16) _ bitsLt_bf16_f32 (ix2 m d)).trans ?_
      refine (sum_over_users_apply _ _ _ _ _ m d).trans ?_
      exact Finset.sum_congr rfl fun k' _ => shapeCast_1abc_abc_apply x0 _ m k' d
    · refine (transpose_ix2_apply _ _ d h).trans ?_
      exact truncf_apply (φ := FTy.f32) (ψ := FTy.bf16) _ bitsLt_bf16_f32 (ix2 h d)
  · -- the user term
    refine (Layout.bcast_over_antennas _ _ m k h).trans ?_
    refine (shapeCast_ab_1ab_apply _ _ (0 : Fin 1) k h).trans ?_
    refine (Products.small_apply _ _ k h).trans ?_
    refine Finset.sum_congr rfl fun d _ => congrArg₂ (· * ·) ?_ ?_
    · refine (truncf_apply (φ := FTy.f32) (ψ := FTy.bf16) _ bitsLt_bf16_f32 (ix2 k d)).trans ?_
      refine (sum_over_antennas_apply _ _ _ _ _ k d).trans ?_
      exact Finset.sum_congr rfl fun m' _ => shapeCast_1abc_abc_apply x0 _ m' k d
    · refine (transpose_ix2_apply _ _ d h).trans ?_
      exact truncf_apply (φ := FTy.f32) (ψ := FTy.bf16) _ bitsLt_bf16_f32 (ix2 h d)

end Cert.Gnn.Payload

end
-- ==== Proof.KernelValue.lean ====
/-
  The kernel's result array is the layer of its arguments.

  The grid has one point per batch. Point `t` is handed batch `t`'s `[1, 64, 64, 128]` slice of the input and the three
  weight matrices whole (their block index is zero at every point), and writes back the `[1, 64, 64, 128]` block at batch
  `t` of the output. What it writes is the layer's formula on its input block (`Payload.stored_at`), and the layer at
  batch `t` is that formula on batch `t`'s slice (`layerAt_eq_blockAt`): so the block written back IS block `t` of the
  layer of the whole arrays. Every output index `(b, m, k, h)` lies in point `b`'s block, so after the run the output array
  is the layer everywhere.
-/
import proofs.«172547_j44495861186887_1_alg».proof.Proof.Gen.KernelIdeal.Value
import proofs.«172547_j44495861186887_1_alg».proof.Proof.Payload

noncomputable section

open scoped BigOperators

namespace Cert.Gnn.Kernel

open Cert.KernelIdeal Cert.KernelIdeal.Gen Cert.KernelIdeal.Value Idealize.ShloMosaic Idealize.ShloMosaic.TcCoe
open Idealize.SL.Sem Idealize.ShloMosaic.ValueIdx Cert.Gnn
open Idealize.ShloMosaic.Pipeline (Dat)

variable (m : (ℓ : Loc nD τ sig) → Buf (Elt Ideal) ℓ) (ρ : Dev nD → PrngReg)

theorem zero_off4 : (![0, 0, 0, 0] : Fin 4 → Nat) = fun _ => 0 := funext fun a => by fin_cases a <;> rfl
theorem zero_off2 : (![0, 0] : Fin 2 → Nat) = fun _ => 0 := funext fun a => by fin_cases a <;> rfl

/-- The printed index maps over the grid: the input's and the output's block index is the point on the batch axis and
    zero on the others; a weight matrix's is zero on both axes. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_4.index t (0 : Fin 4) = t.val ∧ win0_4.index t (1 : Fin 4) = 0 ∧ win0_4.index t (2 : Fin 4) = 0 ∧ win0_4.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The batch a grid point works on. -/
def batchOf (t : Fin cfg0.N) : Fin 64 := ⟨t.val, by have hN : grid0.N = 64 := N_0; have ht : t.val < grid0.N := t.isLt; omega⟩

/-- WHAT POINT `t` WRITES BACK is block `t` of the layer of the argument arrays as the region finds them. -/
theorem flushed_eq (c : Dev nD) (t : Fin cfg0.N) :
    (dats m 0 c).flushed 4 t = ((cfg0.win 4).blk t).view.read (Elt Ideal)
      (layer (V m c main_arg0) (V m c main_arg1) (V m c main_arg2) (V m c main_arg3)) := by
  rw [flushed4]
  unfold out0_4
  rw [View.canon_unit_zero zero_off4]
  simp only [View.ld_unit_zero (S := S1x64x64x128) zero_off4, View.ld_unit_zero (S := S128x128) zero_off2]
  obtain ⟨a0, a1, a2, a3, o0, o1, o2, o3, s0, s1, p0, p1, q0, q1⟩ := idx_facts t
  -- the input blocks at point `t`: batch `t`'s slice, and the weight matrices whole
  have e0 : (iblk m c 0 t : Blk) = batch (V m c main_arg0) (batchOf t) := by
    funext y
    show V m c main_arg0 (((cfg0.win 0).blk t).view.emb y) = V m c main_arg0 (ix4 (batchOf t) (y 1) (y 2) (y 3))
    refine congrArg (V m c main_arg0) (funext fun a => Fin.ext ?_)
    match a with
    | ⟨0, _⟩ => show win0_0.index t (0 : Fin 4) * 1 + 1 * (y 0).val = t.val; have hy : (y 0).val < 1 := (y 0).isLt; omega
    | ⟨1, _⟩ => show win0_0.index t (1 : Fin 4) * 64 + 1 * (y 1).val = (y 1).val; omega
    | ⟨2, _⟩ => show win0_0.index t (2 : Fin 4) * 64 + 1 * (y 2).val = (y 2).val; omega
    | ⟨3, _⟩ => show win0_0.index t (3 : Fin 4) * 128 + 1 * (y 3).val = (y 3).val; omega
  have e1 : (iblk m c 1 t : Mat) = V m c main_arg1 := by
    funext y
    show V m c main_arg1 (((cfg0.win 1).blk t).view.emb y) = V m c main_arg1 y
    refine congrArg (V m c main_arg1) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have e2 : (iblk m c 2 t : Mat) = V m c main_arg2 := by
    funext y
    show V m c main_arg2 (((cfg0.win 2).blk t).view.emb y) = V m c main_arg2 y
    refine congrArg (V m c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have e3 : (iblk m c 3 t : Mat) = V m c main_arg3 := by
    funext y
    show V m c main_arg3 (((cfg0.win 3).blk t).view.emb y) = V m c main_arg3 y
    refine congrArg (V m c main_arg3) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  funext j
  obtain ⟨u, mm, k, h, rfl⟩ : ∃ (u : Fin 1) (mm k : Fin 64) (h : Fin 128), j = ix4 u mm k h :=
    ⟨j 0, j 1, j 2, j 3, eq_ix4 j⟩
  show k0_pay1 (F := Ideal) (iblk m c 0 t) (iblk m c 1 t) (iblk m c 2 t) (iblk m c 3 t) (ix4 u mm k h)
    = layer (V m c main_arg0) (V m c main_arg1) (V m c main_arg2) (V m c main_arg3) (((cfg0.win 4).blk t).view.emb (ix4 u mm k h))
  refine (Payload.stored_at _ _ _ _ u mm k h).trans ?_
  -- the output index under the block's element `(u, mm, k, h)` is `(t, mm, k, h)`
  have hemb : ((cfg0.win 4).blk t).view.emb (ix4 u mm k h) = ix4 (batchOf t) mm k h := by
    funext a; apply Fin.ext
    match a with
    | ⟨0, _⟩ => show win0_4.index t (0 : Fin 4) * 1 + 1 * u.val = t.val; have hu : u.val < 1 := u.isLt; omega
    | ⟨1, _⟩ => show win0_4.index t (1 : Fin 4) * 64 + 1 * mm.val = mm.val; omega
    | ⟨2, _⟩ => show win0_4.index t (2 : Fin 4) * 64 + 1 * k.val = k.val; omega
    | ⟨3, _⟩ => show win0_4.index t (3 : Fin 4) * 128 + 1 * h.val = h.val; omega
  rw [hemb, e0, e1, e2, e3]
  rfl

/-- An index of the output is in point `t`'s block iff each coordinate is in the block's range on its axis. -/
theorem mem_blk (t : Fin cfg0.N) (i : S64x64x64x128.Idx) :
    i ∈ ((cfg0.win 4).blk t).view.set ↔ ∀ a : Fin 4, win0_4.index t a * S1x64x64x128.size a ≤ (i a).val ∧ (i a).val < win0_4.index t a * S1x64x64x128.size a + S1x64x64x128.size a := by
  show i ∈ ((View.whole main_v0).slice (win0_4.rect t)).set ↔ _
  rw [View.set_slice_whole, Rect.mem_set_unit]
  exact Iff.rfl

/-- Every output index `(b, ·, ·, ·)` is in the block of the point that works on batch `b`. -/
theorem cover (i : S64x64x64x128.Idx) : ∃ t : Fin cfg0.N, (cfg0.win 4).flush t = true ∧ i ∈ ((cfg0.win 4).blk t).view.set := by
  have hN : grid0.N = 64 := N_0
  have hi0 : (i 0).val < 64 := (i 0).isLt
  have hi1 : (i 1).val < 64 := (i 1).isLt
  have hi2 : (i 2).val < 64 := (i 2).isLt
  have hi3 : (i 3).val < 128 := (i 3).isLt
  obtain ⟨t, ht⟩ : ∃ t : Fin cfg0.N, t.val = (i 0).val := ⟨⟨(i 0).val, by show (i 0).val < grid0.N; omega⟩, rfl⟩
  obtain ⟨-, -, -, -, o0, o1, o2, o3, -⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 64 ≤ (i 2).val ∧ (i 2).val < win0_4.index t (2 : Fin 4) * 64 + 64; omega
  | ⟨3, _⟩ => show win0_4.index t (3 : Fin 4) * 128 ≤ (i 3).val ∧ (i 3).val < win0_4.index t (3 : Fin 4) * 128 + 128; omega

/-- THE OUTPUT ARRAY after the run: the layer of the argument arrays. -/
theorem final (c : Dev nD) :
    (dats m 0 c).arrAt 4 cfg0.N = layer (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

/-- The kernel's run re-posted: the result at the layer of the arguments, the arguments unchanged. -/
theorem run : θ_run defs (onTc (τ := τ) (main (F := Ideal))) ⟨m, fun _ => 0, ρ⟩ fun r => ∀ c : Dev nD,
      r.2.mem ((c : Thread nD τ).loc main_v0) = layer (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Gnn.Kernel

end
-- ==== Proof.RefValue.lean ====
/-
  The reference computes the layer.

  Its last value, read one operation at a time at the index `(b, m, k, h)`: the two additions put the three terms side by
  side; each broadcast reads its operand at the coordinates it keeps (the antenna term forgets `k`, the user term forgets
  `m`); each `dot_general` is the sum over `d` of left entry times weight entry `[h, d]`; and the two `reduce add`s from the
  initial value zero are `0 + ∑` over users, resp. antennas. Dropping the zero, the three terms are literally those of
  `Cert.Gnn.layerAt`; what remains is that each composed index map lands on the named coordinates, checked axis by axis.
-/
import proofs.«172547_j44495861186887_1_alg».proof.Proof.Gen.ReferenceIdeal.Read
import proofs.«172547_j44495861186887_1_alg».proof.Proof.Spec

noncomputable section

open scoped BigOperators

namespace Cert.Gnn.Ref

open Cert.ReferenceIdeal Cert.ReferenceIdeal.Read Idealize.ShloMosaic Idealize.ShloMosaic.ValueIdx Cert.Gnn

/-- The reference's result array, at the extended reals, is the layer of its four arguments. -/
theorem result_eq_layer (x0 : (⟨S64x64x64x128, .f32⟩ : BufTy).Contents (Elt Ideal))
    (x1 x2 x3 : (⟨S128x128, .f32⟩ : BufTy).Contents (Elt Ideal)) :
    val_main_v10 (F := Ideal) x0 x1 x2 x3 = layer x0 x1 x2 x3 := by
  funext i
  obtain ⟨b, m, k, h, rfl⟩ : ∃ (b m k : Fin 64) (h : Fin 128), i = ix4 b m k h := ⟨i 0, i 1, i 2, i 3, eq_ix4 i⟩
  rw [val_main_v10_apply, val_main_v8_apply, val_main_v9_apply, val_main_v6_apply, val_main_v5_apply, val_main_v7_apply,
    val_main_v4_apply, val_main_v3_apply, val_main_v2_apply]
  simp only [val_main_v0_apply, val_main_v1_apply, val_main_cst_apply, val_main_cst_0_apply]
  have z : (FloatOps.ofBits FTy.f32 0x00000000#32 : Ideal .f32) = 0 := Ideal.ofBits_zero_f32
  show (_ + _) + _ = layerAt x0 x1 x2 x3 b m k h
  unfold layerAt
  refine congrArg₂ (· + ·) (congrArg₂ (· + ·) ?_ ?_) ?_
  · -- the pair's own vector through the self weights
    refine Finset.sum_congr rfl fun d _ => congrArg₂ (· * ·) (congrArg x0 ?_) (congrArg x1 ?_)
    · funext a; match a with | ⟨0, _⟩ => rfl | ⟨1, _⟩ => rfl | ⟨2, _⟩ => rfl | ⟨3, _⟩ => rfl
    · funext a; match a with | ⟨0, _⟩ => rfl | ⟨1, _⟩ => rfl
  · -- the antenna's vectors summed over the users
    refine Finset.sum_congr rfl fun d _ => congrArg₂ (· * ·) ?_ (congrArg x2 ?_)
    · rw [z, zero_add]
      refine Finset.sum_congr rfl fun k' _ => congrArg x0 ?_
      funext a; match a with | ⟨0, _⟩ => rfl | ⟨1, _⟩ => rfl | ⟨2, _⟩ => rfl | ⟨3, _⟩ => rfl
    · funext a; match a with | ⟨0, _⟩ => rfl | ⟨1, _⟩ => rfl
  · -- the user's vectors summed over the antennas
    refine Finset.sum_congr rfl fun d _ => congrArg₂ (· * ·) ?_ (congrArg x3 ?_)
    · rw [z, zero_add]
      refine Finset.sum_congr rfl fun m' _ => congrArg x0 ?_
      funext a; match a with | ⟨0, _⟩ => rfl | ⟨1, _⟩ => rfl | ⟨2, _⟩ => rfl | ⟨3, _⟩ => rfl
    · funext a; match a with | ⟨0, _⟩ => rfl | ⟨1, _⟩ => rfl

end Cert.Gnn.Ref

end
-- ==== Proof.lean ====
/-
  The certificate of a message-passing layer over `[64, 64, 64, 128]` inputs (batch, antenna, user, feature) and three
  `[128, 128]` weight matrices:

      out[b,m,k,h] = ∑_d x[b,m,k,d]·Wself[h,d] + ∑_d (∑_k' x[b,m,k',d])·Wm[h,d] + ∑_d (∑_m' x[b,m',k,d])·Wk[h,d].

  The kernel runs one grid point per batch: it sums the batch's block over the users and over the antennas, narrows
  everything to sixteen bits, forms the three products against the transposed weights into zero accumulators (the large one
  on the block viewed as a `[4096, 128]` matrix) and adds the two small products broadcast along the axis each lacks. The
  reference does the same with whole-array sums, three `dot_general`s and two broadcasts. On the extended reals a change
  of format is the identity and a product or sum started from zero is the bare sum, so both are the formula above term
  by term, added in the same order: no law beyond `0 + s = s` joins them, and the finiteness of the inputs is not used.

  The three frames are the generated ones (the reference's is its run with the value dropped); the idealization rewrote
  nothing, so `preserves` is trivial; for `algebraic` both runs are re-posted with the result array named as
  `Cert.Gnn.layer` of the arguments (`Cert.Gnn.Kernel.run`, `Cert.Gnn.Ref.result_eq_layer`), and the arguments agree.
-/
import proofs.«172547_j44495861186887_1_alg».proof.Defs
import proofs.«172547_j44495861186887_1_alg».proof.Proof.Gen.Kernel
import proofs.«172547_j44495861186887_1_alg».proof.Proof.Gen.Kernel.Skeleton
import proofs.«172547_j44495861186887_1_alg».proof.Proof.Gen.Kernel.Launch
import proofs.«172547_j44495861186887_1_alg».proof.Proof.Gen.Kernel.Points
import proofs.«172547_j44495861186887_1_alg».proof.Proof.Gen.Kernel.Frame
import proofs.«172547_j44495861186887_1_alg».proof.Proof.Gen.KernelIdeal
import proofs.«172547_j44495861186887_1_alg».proof.Proof.Gen.KernelIdeal.Skeleton
import proofs.«172547_j44495861186887_1_alg».proof.Proof.Gen.KernelIdeal.Launch
import proofs.«172547_j44495861186887_1_alg».proof.Proof.Gen.KernelIdeal.Points
import proofs.«172547_j44495861186887_1_alg».proof.Proof.Gen.KernelIdeal.Frame
import proofs.«172547_j44495861186887_1_alg».proof.Proof.Gen.ReferenceIdeal
import proofs.«172547_j44495861186887_1_alg».proof.Proof.Gen.Pre_finite_inputs
import proofs.«172547_j44495861186887_1_alg».proof.Proof.Gen.KernelIdeal.Value
import proofs.«172547_j44495861186887_1_alg».proof.Proof.Gen.ReferenceIdeal.Run
import proofs.«172547_j44495861186887_1_alg».proof.Proof.Gen.ReferenceIdeal.Read
import proofs.«172547_j44495861186887_1_alg».proof.Proof.KernelValue
import proofs.«172547_j44495861186887_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result array at the layer of their arguments, and the arguments agree. -/
theorem algebraic : Cert.algebraic_KernelIdeal_ReferenceIdeal := by
  intro m ρ m' ρ' _ hagree
  refine ⟨_, Cert.Gnn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Gnn.Ref.result_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
